-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S16384x1 : Shape := ⟨2, ![16384, 1]⟩
abbrev S16384x16384 : Shape := ⟨2, ![16384, 16384]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S1 .f32) (main_arg1 : FVec F S16384x1 .f32) (main_arg2 : FVec F S16384x16384 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  main_v13
-- ==== Kernel.lean ====
abbrev S1 : Shape := ⟨1, ![1]⟩
abbrev S16384x1 : Shape := ⟨2, ![16384, 1]⟩
abbrev S16384x16384 : Shape := ⟨2, ![16384, 16384]⟩
abbrev S_ : Shape := ⟨0, ![]⟩
abbrev S1x16384 : Shape := ⟨2, ![1, 16384]⟩
abbrev S128x16384 : Shape := ⟨2, ![128, 16384]⟩
abbrev S128x1 : Shape := ⟨2, ![128, 1]⟩
abbrev S128 : Shape := ⟨1, ![128]⟩

abbrev nBuf : Space → Nat
  | .hbm => 8
  | .vmem => 7
  | .smem => 0
  | _ => 0

abbrev bufTy : (tb : Table) → Fin (tcTables nBuf tb) → BufTy
  | .hbm, ⟨0, _⟩ => ⟨S1, .f32⟩
  | .hbm, ⟨1, _⟩ => ⟨S16384x1, .f32⟩
  | .hbm, ⟨2, _⟩ => ⟨S16384x16384, .f32⟩
  | .hbm, ⟨3, _⟩ => ⟨S_, .f32⟩
  | .hbm, ⟨4, _⟩ => ⟨S16384x1, .f32⟩
  | .hbm, ⟨5, _⟩ => ⟨S16384x1, .f32⟩
  | .hbm, ⟨6, _⟩ => ⟨S1x16384, .f32⟩
  | .hbm, ⟨7, _⟩ => ⟨S16384x1, .f32⟩
  | .local _ .vmem, ⟨0, _⟩ => ⟨S128x16384, .f32⟩
  | .local _ .vmem, ⟨1, _⟩ => ⟨S128x16384, .f32⟩
  | .local _ .vmem, ⟨2, _⟩ => ⟨S1x16384, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384x1 : S_.BroadcastsInDim S16384x1 (![] : Fin 0 → Fin S16384x1.rank)
  shapeCasts_S16384x1_S1x16384 : S16384x1.ShapeCasts S1x16384
  inb_S128x16384_S128x16384_0_0 : ∀ a, (![0, 0] : Fin 2 → Nat) a + S128x16384.size a ≤ S128x16384.size a
  h_S128x16384 : 0 < S128x16384.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S128x16384 : S1x16384.Broadcasts S128x16384
  reduces_S128x16384_S128 : S128x16384.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S16384x1.size a
  hwx0_2 : ∀ i : grid0.Coords, EltTy.bits .f32 = 32 ∨ (Rect.block (s := S16384x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .f32 = 32 ∨ (Rect.block (s := S16384x1) S128x1.size (cc0_transform_3 i) (hinb0_3 i)).WholeWords (EltTy.packing .f32)

variable [Facts₀]

abbrev win0_0 : Pipeline.Window sig grid0 :=
  Pipeline.Window.ofSpec (Memref.whole main_arg2) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S16384x1 : Shape := ⟨2, ![16384, 1]⟩
abbrev S16384x16384 : Shape := ⟨2, ![16384, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1, .f32⟩
  | .hbm, ⟨1, _⟩ => ⟨S16384x1, .f32⟩
  | .hbm, ⟨2, _⟩ => ⟨S16384x16384, .f32⟩
  | .hbm, ⟨3, _⟩ => ⟨S_, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1, .f32⟩
  | .hbm, ⟨10, _⟩ => ⟨S16384x1, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  dot_S16384x16384_S16384x1_S16384x1_1_0_0_1_n_n_wf : DotDims.WF S16384x16384 S16384x1 S16384x1 [1] [0] [0] [1] [] []

variable [Facts₀]

def dot_S16384x16384_S16384x1_S16384x1_1_0_0_1_n_n : DotDims S16384x16384 S16384x1 S16384x1 where
  lhsContracting := [1]
  rhsContracting := [0]
  lhsNonContracting := [0]
  rhsNonContracting := [1]
  lhsBatch := []
  rhsBatch := []
  wf := dot_S16384x16384_S16384x1_S16384x1_1_0_0_1_n_n_wf

class Facts : Prop extends Facts₀ where

variable [Facts]
-- ==== Proof.Diffusion.lean ====
/-
  The mathematics of the diffusion-outflow kernel, stated once over the extended reals.

  For a column x of n = 16384 numbers and an n × n matrix A, the result is the column

      outer_r  =  (ρ · x_r) · Σ_k A_{r k} · (1 − x_k),

  with ρ the single-precision word nearest one tenth and 1 the word of one, both kept as their bit patterns
  (the two programs spell the same words, so their numerical values never matter).  Both programs group the
  product exactly this way: first ρ times x_r, then times the row sum.  Only the commutative-monoid structure of
  addition on the extended reals enters (a sum from zero), so no finiteness of the inputs is needed.
-/
import Idealize.ShloMosaic.PureOps.Ideal
import Idealize.ShloMosaic.Lib.ValueIdx

noncomputable section

namespace Cert.Diffusion

open Idealize.ShloMosaic Idealize.ShloMosaic.ValueIdx

/-- The shape of the column x and of the result. -/
abbrev Col : Shape := ⟨2, ![16384, 1]⟩
/-- The shape of the matrix A. -/
abbrev Mat : Shape := ⟨2, ![16384, 16384]⟩

/-- The rate constant ρ: the extended real the word `0x3DCCCCCD` denotes. -/
abbrev rate : EReal := Ideal.ofBits .f32 0x3DCCCCCD#32
/-- The constant one: the extended real the word `0x3F800000` denotes. -/
abbrev unit : EReal := Ideal.ofBits .f32 0x3F800000#32

/-- Row `r` of the result: `(ρ · x_r) · Σ_k A_{r k} · (1 − x_k)`. -/
def outerAt (x : Col.Idx → EReal) (A : Mat.Idx → EReal) (r : Fin 16384) : EReal :=
  (rate * x (ix2 r (0 : Fin 1))) * ∑ k : Fin 16384, A (ix2 r k) * (unit - x (ix2 k (0 : Fin 1)))

/-- The whole result column: entry `(r, 0)` is row `r`'s value. -/
def outer (x : Col.Idx → EReal) (A : Mat.Idx → EReal) : Col.Idx → EReal :=
  fun i => outerAt x A (i 0)

/-- A column index is its row coordinate with column coordinate zero. -/
theorem col_eq (i : Col.Idx) : i = ix2 (i 0) (0 : Fin 1) := by
  funext a
  match a with
  | ⟨0, _⟩ => rfl
  | ⟨1, h⟩ =>
    refine Fin.ext ?_
    have h1 : (i ⟨1, h⟩).val < 1 := (i ⟨1, h⟩).isLt
    show (i ⟨1, h⟩).val = 0
    omega

end Cert.Diffusion

end
-- ==== Proof.Reference.lean ====
/-
  The reference program computes the column `Diffusion.outer`.

  Read one operation at a time, entry `(r, 0)` of the reference's result is the product of `ρ · x_r` (the
  broadcast constant times the input column) with the matrix–vector product `Σ_k A_{r k} · (1 − x_k)` (the host's
  `dot_general` contracting A's second axis with the first axis of `1 − x`): literally row `r` of `outer`, once
  the operands' indices are named by their coordinates.
-/
import proofs.«167526_j23270132810378_1_alg».proof.Proof.Gen.ReferenceIdeal.Read
import proofs.«167526_j23270132810378_1_alg».proof.Proof.Diffusion

noncomputable section

namespace Cert.Diffusion.Reference

open Idealize.ShloMosaic Idealize.ShloMosaic.ValueIdx Cert.ReferenceIdeal Cert.ReferenceIdeal.Read

/-- The left operand of the contraction at result index `i = (r, 0)` and summation index `k` is `A_{r k}`. -/
theorem lhs_at (i : S16384x1.Idx) (k : Fin 16384) : lidx_main_v4 i k = ix2 (i 0) k :=
  funext fun a => Fin.ext (by match a with | ⟨0, _⟩ => rfl | ⟨1, _⟩ => rfl)

/-- The right operand there is entry `(k, 0)` of the column `1 − x`: the result's column coordinate is zero. -/
theorem rhs_at (i : S16384x1.Idx) (k : Fin 16384) : ridx_main_v4 i k = ix2 k (0 : Fin 1) :=
  funext fun a => Fin.ext (by
    match a with
    | ⟨0, _⟩ => rfl
    | ⟨1, _⟩ =>
      have h1 : (i 1).val < 1 := (i 1).isLt
      show (i 1).val = 0
      omega)

/-- The reference's last stage is `outer` of the two arrays it reads. -/
theorem result_eq (x : (⟨S16384x1, .f32⟩ : BufTy).Contents (Elt Ideal)) (A : (⟨S16384x16384, .f32⟩ : BufTy).Contents (Elt Ideal)) :
    val_main_v5 (F := Ideal) x A = outer x A := by
  funext i
  have hx : x i = x (ix2 (i 0) (0 : Fin 1)) := congrArg x (col_eq i)
  rw [val_main_v5_apply, val_main_v1_apply, val_main_v0_apply, val_main_cst_apply, val_main_v4_apply]
  simp only [val_main_v3_apply, val_main_v2_apply, val_main_cst_0_apply, lhs_at, rhs_at,
    Ideal.mulf_def, Ideal.subf_def, Ideal.ofBits_def]
  rw [hx]
  rfl

end Cert.Diffusion.Reference

end
-- ==== Proof.Tiles.lean ====
/-
  The kernel computes the column `Diffusion.outer`, tile by tile.

  The grid has 128 points; point `t` handles rows `128·t … 128·t + 127`.  It is handed the 128 × 16384 tile of A
  holding those rows, the whole row `w = (1 − x)ᵀ` (a 1 × 16384 array the host prepared by subtracting x from
  one and re-laying the column as a row), and the 128 × 1 tile of x; it writes the 128 × 1 tile whose local row
  `p` is `(ρ · x_{128t+p}) · Σ_k A_{128t+p, k} · w_k`: the row-wise product of the A tile with the broadcast row,
  summed along the lanes from zero, times `ρ · x`.  Since `w_k = 1 − x_k`, that is row `128·t + p` of `outer`.
  The 128 output tiles are disjoint and together cover the column, so the array the run leaves is `outer`.
-/
import proofs.«167526_j23270132810378_1_alg».proof.Proof.Gen.KernelIdeal.Value
import proofs.«167526_j23270132810378_1_alg».proof.Proof.Diffusion
import Idealize.ShloMosaic.Lib.ValueLayout
import Idealize.ShloMosaic.PureOps.Ideal.Laws
import Idealize.ShloMosaic.Lib.StableHlo.Run

noncomputable section

namespace Cert.Diffusion.Kernel

open Cert.KernelIdeal Cert.KernelIdeal.Gen Idealize.ShloMosaic Idealize.ShloMosaic.ValueIdx
open Idealize.ShloMosaic.TcCoe Idealize.SL.Sem
open Idealize.ShloMosaic.Pipeline (Dat)

/-! ## One tile: the body's arithmetic at a local row -/

/-- A lane sum from zero of a 128 × 16384 tile, at local row `p`, is the sum of that row's 16384 entries. -/
theorem rowsum_at (src : FVec Ideal S128x16384 .f32) (p : Fin 128) :
    multiReduction .add [1] S128 src 0x00000000#32 reduces_S128x16384_S128 (.inl rfl) rfl (ix1 p)
      = ∑ k : Fin 16384, src (ix2 p k) := by
  refine (Ideal.multiReduction_add_single src 0x00000000#32 reduces_S128x16384_S128 (.inl rfl) rfl (ix1 p)).trans ?_
  refine Finset.sum_congr rfl fun k _ => congrArg src ?_
  funext a
  refine Fin.ext ?_
  match a with
  | ⟨0, _⟩ => rfl
  | ⟨1, _⟩ => rfl

/-- A 128-vector viewed as a 128 × 1 column reads its entry `p` at `(p, 0)`. -/
theorem column_at (v : FVec Ideal S128 .f32) (p : Fin 128) :
    shapeCast S128x1 v shapeCasts_S128_S128x1 (ix2 p (0 : Fin 1)) = v (ix1 p) :=
  shapeCast_apply v shapeCasts_S128_S128x1 (ix2 p (0 : Fin 1)) (ix1 p) (by
    rw [Shape.rowMajor_val_one, Shape.rowMajor_val_two]
    show p.val = p.val * 1 + 0
    omega)

/-- THE TILE: for any A tile `a`, row `w` and x tile `x`, the stored value at local row `p` is
    `(ρ · x_p) · Σ_k a_{p k} · w_k`. -/
theorem tile_at (a : Vec Ideal S128x16384 .f32) (w : Vec Ideal S1x16384 .f32) (x : Vec Ideal S128x1 .f32) (p : Fin 128) :
    k0_pay1 (F := Ideal) a w x (ix2 p (0 : Fin 1))
      = (rate * x (ix2 p (0 : Fin 1))) * ∑ k : Fin 16384, a (ix2 p k) * w (ix2 (0 : Fin 1) k) := by
  unfold k0_pay1
  refine (mulf_apply _ _ _).trans ?_
  refine congrArg₂ (· * ·) rfl ?_
  refine (column_at _ p).trans ?_
  refine (rowsum_at _ p).trans ?_
  refine Finset.sum_congr rfl fun k _ => ?_
  refine (mulf_apply _ _ _).trans ?_
  refine congrArg (a (ix2 p k) * ·) ?_
  rw [shapeCast_self]
  exact broadcastTo_1b_ab_apply w broadcasts_S1x16384_S128x16384 p k

end Cert.Diffusion.Kernel

end
-- ==== Proof.Blocks.lean ====
/-
  From the tiles to the whole column.

  At grid point `t` the A tile is rows `128·t … 128·t + 127` of A with every column, the x tile the same rows of
  x, the row `w` the whole prepared row at every point, and the output tile the same rows of the result.  The
  prepared row holds `w_k = 1 − x_k`: the host subtracts x from the broadcast constant one and re-lays the
  16384 × 1 column as a 1 × 16384 row, which keeps the row-major position `k`.  So the tile written at point `t` is
  the restriction of `outer x A` to those rows; every row `r` lies in the tile of point `r / 128`; hence the array
  after the run is `outer x A`.
-/
import proofs.«167526_j23270132810378_1_alg».proof.Proof.Tiles

noncomputable section

namespace Cert.Diffusion.Kernel

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## The arrays and the blocks, at their literal types -/

/-- The input column x as launched. -/
abbrev xArr (c : Dev nD) : Col.Idx → EReal := m ((c : Thread nD τ).loc main_arg1)
/-- The input matrix A as launched. -/
abbrev aArr (c : Dev nD) : Mat.Idx → EReal := m ((c : Thread nD τ).loc main_arg2)

/-- The A tile, the prepared row and the x tile the body loads at point `t`. -/
abbrev aBlk (c : Dev nD) (t : Fin cfg0.N) : Vec Ideal S128x16384 .f32 := iblk m c 0 t
abbrev wBlk (c : Dev nD) (t : Fin cfg0.N) : Vec Ideal S1x16384 .f32 := iblk m c 1 t
abbrev xBlk (c : Dev nD) (t : Fin cfg0.N) : Vec Ideal S128x1 .f32 := iblk m c 2 t

/-- The global row that local row `p` of point `t`'s tiles is. -/
def rowOf (t : Fin cfg0.N) (p : Fin 128) : Fin 16384 :=
  ⟨t.val * 128 + p.val, by
    have hN : grid0.N = 128 := Gen.N_0
    have ht : t.val < grid0.N := t.isLt
    have hp : p.val < 128 := p.isLt
    omega⟩

/-- The block index of each window at each of the 128 points: the A, x and output tiles advance one block of rows
    per point, the prepared row stays put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The prepared row -/

/-- Entry `(0, k)` of the row the host prepares is `1 − x_k`. -/
theorem prepared_at (c : Dev nD) (k : Fin 16384) :
    V m c main_v2 (ix2 (0 : Fin 1) k) = unit - xArr m c (ix2 k (0 : Fin 1)) := by
  have e : (V m c main_v2 : S1x16384.Idx → EReal)
      = shapeCast S1x16384 (subf (broadcastInDim S16384x1 ![] bcast_S_S16384x1 (constant (F := Ideal) S_ .f32 0x3F800000#32))
          (m ((c : Thread nD τ).loc main_arg1))) shapeCasts_S16384x1_S1x16384 := by
    dsimp only [Gen.V, Gen.hostOps0]; after_results; rfl
  refine (congrFun e (ix2 (0 : Fin 1) k)).trans ?_
  refine (shapeCast_apply _ shapeCasts_S16384x1_S1x16384 (ix2 (0 : Fin 1) k) (ix2 k (0 : Fin 1)) (by
    rw [Shape.rowMajor_val_two, Shape.rowMajor_val_two]
    show k.val * 1 + 0 = 0 * 16384 + k.val
    omega)).trans ?_
  rfl

/-! ## Each block, read off its array -/

/-- The x tile at local row `p` is `x` at the global row. -/
theorem xBlk_at (c : Dev nD) (t : Fin cfg0.N) (p : Fin 128) :
    xBlk m c t (ix2 p (0 : Fin 1)) = xArr m c (ix2 (rowOf t p) (0 : Fin 1)) := by
  obtain ⟨-, -, -, -, e20, e21, -, -⟩ := idx_facts t
  show V m c main_arg1 (((cfg0.win 2).blk t).view.emb (ix2 p (0 : Fin 1))) = _
  rw [V_main_arg1]
  refine congrArg (xArr m c) (funext fun a => Fin.ext ?_)
  match a with
  | ⟨0, _⟩ => show win0_2.index t (0 : Fin 2) * 128 + 1 * p.val = t.val * 128 + p.val; omega
  | ⟨1, _⟩ => show win0_2.index t (1 : Fin 2) * 1 + 1 * 0 = 0; omega

/-- The A tile at local row `p`, column `k` is `A` at the global row, column `k`. -/
theorem aBlk_at (c : Dev nD) (t : Fin cfg0.N) (p : Fin 128) (k : Fin 16384) :
    aBlk m c t (ix2 p k) = aArr m c (ix2 (rowOf t p) k) := by
  obtain ⟨e00, e01, -, -, -, -, -, -⟩ := idx_facts t
  show V m c main_arg2 (((cfg0.win 0).blk t).view.emb (ix2 p k)) = _
  rw [V_main_arg2]
  refine congrArg (aArr m c) (funext fun a => Fin.ext ?_)
  match a with
  | ⟨0, _⟩ => show win0_0.index t (0 : Fin 2) * 128 + 1 * p.val = t.val * 128 + p.val; omega
  | ⟨1, _⟩ => show win0_0.index t (1 : Fin 2) * 16384 + 1 * k.val = k.val; omega

/-- The row block at `(0, k)` is `1 − x_k`, at every point. -/
theorem wBlk_at (c : Dev nD) (t : Fin cfg0.N) (k : Fin 16384) :
    wBlk m c t (ix2 (0 : Fin 1) k) = unit - xArr m c (ix2 k (0 : Fin 1)) := by
  obtain ⟨-, -, e10, e11, -, -, -, -⟩ := idx_facts t
  refine Eq.trans ?_ (prepared_at m c k)
  show V m c main_v2 (((cfg0.win 1).blk t).view.emb (ix2 (0 : Fin 1) k)) = _
  refine congrArg (V m c main_v2) (funext fun a => Fin.ext ?_)
  match a with
  | ⟨0, _⟩ => show win0_1.index t (0 : Fin 2) * 1 + 1 * 0 = 0; omega
  | ⟨1, _⟩ => show win0_1.index t (1 : Fin 2) * 16384 + 1 * k.val = k.val; omega

/-! ## What a point writes back -/

theorem hz : (![0, 0] : Fin 2 → Nat) = fun _ => 0 := funext fun a => by fin_cases a <;> rfl

/-- Local row `p` of the tile point `t` stores is row `rowOf t p` of `outer`. -/
theorem stored_at (c : Dev nD) (t : Fin cfg0.N) (p : Fin 128) :
    k0_pay1 (F := Ideal) (aBlk m c t) (wBlk m c t) (xBlk m c t) (ix2 p (0 : Fin 1))
      = outerAt (xArr m c) (aArr m c) (rowOf t p) := by
  refine (tile_at (aBlk m c t) (wBlk m c t) (xBlk m c t) p).trans ?_
  unfold outerAt
  rw [xBlk_at m c t p]
  refine congrArg ((rate * xArr m c (ix2 (rowOf t p) (0 : Fin 1))) * ·) ?_
  exact Finset.sum_congr rfl fun k _ => by rw [aBlk_at m c t p k, wBlk_at m c t k]

/-- WHAT POINT `t` WRITES BACK is block `t` of `outer x A`. -/
theorem flushed_eq (c : Dev nD) (t : Fin cfg0.N) :
    (dats m 0 c).flushed 3 t = ((cfg0.win 3).blk t).view.read (Elt Ideal) (outer (xArr m c) (aArr m c)) := by
  rw [Cert.KernelIdeal.Value.flushed3]
  unfold out0_3
  rw [View.canon_unit_zero hz]
  simp only [View.ld_unit_zero (S := S128x16384) hz, View.ld_unit_zero (S := S1x16384) hz, View.ld_unit_zero (S := S128x1) hz]
  obtain ⟨-, -, -, -, -, -, e30, e31⟩ := idx_facts t
  funext j
  have hj0 : (j 0).val < 128 := (j 0).isLt
  have hj1 : (j 1).val < 1 := (j 1).isLt
  have hj : j = ix2 (⟨(j 0).val, hj0⟩ : Fin 128) (0 : Fin 1) := by
    funext a; refine Fin.ext ?_
    match a with
    | ⟨0, _⟩ => rfl
    | ⟨1, _⟩ => show (j 1).val = 0; omega
  show k0_pay1 (F := Ideal) (aBlk m c t) (wBlk m c t) (xBlk m c t) j
      = outerAt (xArr m c) (aArr m c) ((((cfg0.win 3).blk t).view.emb j) 0)
  have hr : (((cfg0.win 3).blk t).view.emb j) 0 = rowOf t ⟨(j 0).val, hj0⟩ := by
    refine Fin.ext ?_
    show win0_3.index t (0 : Fin 2) * 128 + 1 * (j 0).val = t.val * 128 + (j 0).val
    omega
  rw [hr]
  refine Eq.trans ?_ (stored_at m c t ⟨(j 0).val, hj0⟩)
  exact congrArg (k0_pay1 (F := Ideal) (aBlk m c t) (wBlk m c t) (xBlk m c t)) hj

/-! ## The cover and the final array -/

/-- A row of the result is in point `t`'s block iff each coordinate is in the block's range. -/
theorem mem_blk (t : Fin cfg0.N) (i : S16384x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v3).slice (win0_3.rect t)).set ↔ _
  rw [View.set_slice_whole, Rect.mem_set_unit]
  exact Iff.rfl

/-- Row `r` lies in the block of point `r / 128`, which writes back. -/
theorem cover (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have hN : grid0.N = 128 := Gen.N_0
  have hlt : (i 0).val / 128 < grid0.N := by omega
  obtain ⟨-, -, -, -, -, -, e30, e31⟩ := idx_facts ⟨(i 0).val / 128, hlt⟩
  refine ⟨⟨(i 0).val / 128, hlt⟩, flush0_3 _, ?_⟩
  rw [mem_blk]
  intro a
  match a with
  | ⟨0, _⟩ =>
    show win0_3.index ⟨(i 0).val / 128, hlt⟩ (0 : Fin 2) * 128 ≤ (i 0).val ∧ (i 0).val < win0_3.index ⟨(i 0).val / 128, hlt⟩ (0 : Fin 2) * 128 + 128
    have e : win0_3.index ⟨(i 0).val / 128, hlt⟩ (0 : Fin 2) = (i 0).val / 128 := e30
    omega
  | ⟨1, _⟩ =>
    show win0_3.index ⟨(i 0).val / 128, hlt⟩ (1 : Fin 2) * 1 ≤ (i 1).val ∧ (i 1).val < win0_3.index ⟨(i 0).val / 128, hlt⟩ (1 : Fin 2) * 1 + 1
    omega

/-- THE ARRAY after the run is `outer x A`. -/
theorem final (c : Dev nD) : (dats m 0 c).arrAt 3 cfg0.N = outer (xArr m c) (aArr m c) :=
  (dats m 0 c).arrAt_eq_of_cover 3 (outer (xArr m c) (aArr m c)) (fun t _ => flushed_eq m c t) cover

/-- The kernel's run: the result array ends at `outer x A` of the launched arrays, the arguments unchanged. -/
theorem run : θ_run defs (onTc (τ := τ) (main (F := Ideal))) ⟨m, fun _ => 0, ρ⟩ fun r => ∀ c : Dev nD,
      r.2.mem ((c : Thread nD τ).loc main_v3) = outer (xArr m c) (aArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Diffusion.Kernel

end
-- ==== Proof.lean ====
/-
  Both programs compute, for a column x of 16384 numbers and a 16384 × 16384 matrix A, the column

      outer_r = (ρ · x_r) · Σ_k A_{r k} · (1 − x_k)

  on the extended reals (Proof/Diffusion.lean), ρ and 1 being the same single-precision words in both.

  * The reference forms `ρ · x`, forms `1 − x`, contracts A with it, and multiplies the two columns
    (Proof/Reference.lean reads its stages at an index).
  * The kernel lets the host form `1 − x` and re-lay it as a row; each of its 128 grid points multiplies a
    128-row tile of A by that row, sums along the lanes, and multiplies by `ρ · x` on the same rows
    (Proof/Tiles.lean: one tile; Proof/Blocks.lean: the tiles are the restrictions of `outer`, and they cover it).

  The two agree term by term, with the same grouping of the products and a row sum started from zero on one side
  and from nothing on the other; no law that would need finite inputs is used, so the precondition is never opened.
  The three frames are the generated ones (the reference's is its run with the result dropped), and the kernel's
  idealization rewrote nothing, so there is nothing to preserve.
-/
import proofs.«167526_j23270132810378_1_alg».proof.Defs
import proofs.«167526_j23270132810378_1_alg».proof.Proof.Gen.Kernel
import proofs.«167526_j23270132810378_1_alg».proof.Proof.Gen.Kernel.Frame
import proofs.«167526_j23270132810378_1_alg».proof.Proof.Gen.KernelIdeal
import proofs.«167526_j23270132810378_1_alg».proof.Proof.Gen.KernelIdeal.Frame
import proofs.«167526_j23270132810378_1_alg».proof.Proof.Gen.KernelIdeal.Value
import proofs.«167526_j23270132810378_1_alg».proof.Proof.Gen.ReferenceIdeal
import proofs.«167526_j23270132810378_1_alg».proof.Proof.Gen.ReferenceIdeal.Run
import proofs.«167526_j23270132810378_1_alg».proof.Proof.Gen.ReferenceIdeal.Read
import proofs.«167526_j23270132810378_1_alg».proof.Proof.Gen.Pre_finite_inputs
import proofs.«167526_j23270132810378_1_alg».proof.Proof.Reference
import proofs.«167526_j23270132810378_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference's frame is its run with the result's conjunct dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and A, both programs end with the column `outer x A`. -/
theorem algebraic : Cert.algebraic_KernelIdeal_ReferenceIdeal := by
  intro m ρ m' ρ' _ hagree
  refine ⟨fun c => Cert.Diffusion.outer (Cert.Diffusion.Kernel.xArr m c) (Cert.Diffusion.Kernel.aArr m c),
    Cert.Diffusion.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Diffusion.Reference.result_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
